-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S8x1024x1024 : Shape := ⟨3, ![8, 1024, 1024]⟩
abbrev S8 : Shape := ⟨1, ![8]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S8x1024x1024 : S_.BroadcastsInDim S8x1024x1024 (![] : Fin 0 → Fin S8x1024x1024.rank)
  reducesTo_S8x1024x1024_S_d0_1_2 : S8x1024x1024.ReducesTo [0, 1, 2] S_
  bcast_S_S8 : S_.BroadcastsInDim S8 (![] : Fin 0 → Fin S8.rank)
  reducesTo_S8_S_d0 : S8.ReducesTo [0] S_

variable [Facts]

def fn {F : FTy → Type} [FloatOps F] (main_arg0 : FVec F S4096x1024 .f32) (main_arg1 : FVec F S8x1024x1024 .f32) (main_arg2 : IVec S8 32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S8x1024x1024 .f32 := Host.absf main_arg1
  let main_cst_0 : FVec F S_ .f32 := constant S_ .f32 0x7F800000#32
  let main_v5 : FVec F S8x1024x1024 .f32 := broadcastInDim S8x1024x1024 ![] bcast_S_S8x1024x1024 main_cst_0
  let main_v6 : IVec S8x1024x1024 1 := cmpf .olt main_v4 main_v5
  let main_c_1 : IVec S_ 1 := constantI S_ 1 1#1
  let main_v7 : IVec S_ 1 := (fun x v => Host.reduce IntOp.andi x v reducesTo_S8x1024x1024_S_d0_1_2 h_S_) main_v6 main_c_1
  let main_v8 : IVec S_ 1 := andi main_v3 main_v7
  let main_c_2 : IVec S_ 32 := constantI S_ 32 0#32
  let main_v9 : IVec S8 32 := broadcastInDim S8 ![] bcast_S_S8 main_c_2
  let main_v10 : IVec S8 1 := cmpi .sge main_arg2 main_v9
  let main_c_3 : IVec S_ 1 := constantI S_ 1 1#1
  let main_v11 : IVec S_ 1 := (fun x v => Host.reduce IntOp.andi x v reducesTo_S8_S_d0 h_S_) main_v10 main_c_3
  let main_v12 : IVec S_ 1 := andi main_v8 main_v11
  main_v12
-- ==== Kernel.lean ====
abbrev S4096x1024 : Shape := ⟨2, ![4096, 1024]⟩
abbrev S8x1024x1024 : Shape := ⟨3, ![8, 1024, 1024]⟩
abbrev S8 : Shape := ⟨1, ![8]⟩
abbrev S_ : Shape := ⟨0, ![]⟩
abbrev S32768x1024 : Shape := ⟨2, ![32768, 1024]⟩
abbrev S2048x1024 : Shape := ⟨2, ![2048, 1024]⟩
abbrev S1x1024x1024 : Shape := ⟨3, ![1, 1024, 1024]⟩
abbrev S1 : Shape := ⟨1, ![1]⟩
abbrev S1024x1024 : Shape := ⟨2, ![1024, 1024]⟩

abbrev nBuf : Space → Nat
  | .hbm => 13
  | .vmem => 6
  | .smem => 1
  | _ => 0

abbrev bufTy : (tb : Table) → Fin (tcTables nBuf tb) → BufTy
  | .hbm, ⟨0, _⟩ => ⟨S4096x1024, .f32⟩
  | .hbm, ⟨1, _⟩ => ⟨S8x1024x1024, .f32⟩
  | .hbm, ⟨2, _⟩ => ⟨S8, .i32⟩
  | .hbm, ⟨3, _⟩ => ⟨S_, .i32⟩
  | .hbm, ⟨4, _⟩ => ⟨S_, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S4096x1024, .bf16⟩
  | .hbm, ⟨11, _⟩ => ⟨S8x1024x1024, .bf16⟩
  | .hbm, ⟨12, _⟩ => ⟨S32768x1024, .f32⟩
  | .local _ .vmem, ⟨0, _⟩ => ⟨S2048x1024, .bf16⟩
  | .local _ .vmem, ⟨1, _⟩ => ⟨S2048x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S2048x1024, .f32⟩
  | .local _ .vmem, ⟨5, _⟩ => ⟨S2048x1024, .f32⟩
  | .local _ .smem, ⟨0, _⟩ => ⟨S8, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_c_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 8], ![false, false]⟩

abbrev pre0 : Pipeline.Prefetch sig := ⟨1, ![main_v0.idx], fun | 0 => main_v0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S8) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli arg1 c2_i32
  let v1 : BitVec 32 := Scalar.addi v0 arg0
  let c0_i32 : BitVec 32 := 0#32
  let c0_i32_0 : BitVec 32 := 0#32
  ![v1.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

class Facts₀ : Prop where
  bcast_S_S8 : S_.BroadcastsInDim S8 (![] : Fin 0 → Fin S8.rank)
  bitsLt_bf16_f32 : FTy.bits .bf16 < FTy.bits .f32
  numel1_S1 : S1.numel = 1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  dot_S2048x1024_S1024x1024_S2048x1024_1_1_0_0_n_n_wf : DotDims.WF S2048x1024 S1024x1024 S2048x1024 [1] [1] [0] [0] [] []
  hrank0 : 0 < grid0.rank
  k0_off1_inb : ∀ i : grid0.Coords, ∀ a, (k0_off1 i) a + S1.size a ≤ S8.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S32768x1024.size a
  hwx0_2 : ∀ i : grid0.Coords, EltTy.bits .f32 = 32 ∨ (Rect.block (s := S32768x1024) S2048x1024.size (cc0_transform_2 i) (hinb0_2 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev spec0_0 : Pipeline.WinSpec sig grid0.rank :=
  Pipeline.WinSpec.ofSpec (Memref.whole main_v1) S2048x1024.size reads0_0 false false 2 stage0_0 sem0_0 nbuf0_0 hstage0_0

abbrev spec0_1 : Pipeline.WinSpec sig grid0.rank :=
  Pipeline.WinSpec.ofSpec (Memref.whole main_v2) S1x1024x1024.size reads0_1 false false 2 stage0_1 sem0_1 nbuf0_1 hstage0_1

abbrev spec0_2 : Pipeline.WinSpec sig grid0.rank :=
  Pipeline.WinSpec.ofSpec (Memref.whole main_v3) S2048x1024.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_1 k0_off1_inb numel1_S1 pf i a + 1) * S1x1024x1024.size a ≤ S8x1024x1024.size a), EltTy.bits .bf16 = 32 ∨ (Rect.block (s := S8x1024x1024) S1x1024x1024.size (cc0_transform_1 k0_off1_inb numel1_S1 pf i) h).WholeWords (EltTy.packing .bf16))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => hinb0_0 | 1 => fun i a => (hok i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => hwx0_0 | 1 => fun i => (hok i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S4096x1024 : Shape := ⟨2, ![4096, 1024]⟩
abbrev S8x1024x1024 : Shape := ⟨3, ![8, 1024, 1024]⟩
abbrev S8 : Shape := ⟨1, ![8]⟩
abbrev S8x1024x4096 : Shape := ⟨3, ![8, 1024, 4096]⟩
abbrev S8x4096x1024 : Shape := ⟨3, ![8, 4096, 1024]⟩
abbrev S_ : Shape := ⟨0, ![]⟩
abbrev S8x1 : Shape := ⟨2, ![8, 1]⟩
abbrev S32768x1024 : Shape := ⟨2, ![32768, 1024]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S8x1024x1024, .f32⟩
  | .hbm, ⟨2, _⟩ => ⟨S8, .i32⟩
  | .hbm, ⟨3, _⟩ => ⟨S8x1024x4096, .f32⟩
  | .hbm, ⟨4, _⟩ => ⟨S8x4096x1024, .f32⟩
  | .hbm, ⟨5, _⟩ => ⟨S_, .i32⟩
  | .hbm, ⟨6, _⟩ => ⟨S8, .i32⟩
  | .hbm, ⟨7, _⟩ => ⟨S8, .i1⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S8, .i32⟩
  | .hbm, ⟨12, _⟩ => ⟨S8x1, .i32⟩
  | .hbm, ⟨13, _⟩ => ⟨S8x4096x1024, .f32⟩
  | .hbm, ⟨14, _⟩ => ⟨S32768x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩

abbrev nD : Nat := 1
abbrev τ : Topo := Topo.v7x

variable {F : FTy → Type} [FloatOps F]

class Facts₀ : Prop where
  transposes_S8x1024x4096_S8x4096x1024_0_2_1 : S8x1024x4096.Transposes [0, 2, 1] S8x4096x1024
  bcast_S_S8 : S_.BroadcastsInDim S8 (![] : Fin 0 → Fin S8.rank)
  bcast_S8_S8x1_0 : S8.BroadcastsInDim S8x1 (![0] : Fin 1 → Fin S8x1.rank)
  shapeCasts_S8x4096x1024_S32768x1024 : S8x4096x1024.ShapeCasts S32768x1024
  dot_S8x1024x1024_S4096x1024_S8x1024x4096_2_1_01_0_n_n_wf : DotDims.WF S8x1024x1024 S4096x1024 S8x1024x4096 [2] [1] [0, 1] [0] [] []
  gather_S8x4096x1024_S8x1_S8x4096x1024_12_0_n_n_0_1_140961024_wf : GatherDims.WF S8x4096x1024 S8x1 S8x4096x1024 [1, 2] [0] [] [0] [] 1 ![1, 4096, 1024]

variable [Facts₀]

def dot_S8x1024x1024_S4096x1024_S8x1024x4096_2_1_01_0_n_n : DotDims S8x1024x1024 S4096x1024 S8x1024x4096 where
  lhsContracting := [2]
  rhsContracting := [1]
  lhsNonContracting := [0, 1]
  rhsNonContracting := [0]
  lhsBatch := []
  rhsBatch := []
  wf := dot_S8x1024x1024_S4096x1024_S8x1024x4096_2_1_01_0_n_n_wf
def gather_S8x4096x1024_S8x1_S8x4096x1024_12_0_n_n_0_1_140961024 : GatherDims S8x4096x1024 S8x1 S8x4096x1024 where
  offsetDims := [1, 2]
  collapsedSliceDims := [0]
  operandBatchingDims := []
  startIndicesBatchingDims := []
  startIndexMap := [0]
  indexVectorDim := 1
  sliceSizes := ![1, 4096, 1024]
  wf := gather_S8x4096x1024_S8x1_S8x4096x1024_12_0_n_n_0_1_140961024_wf

class Facts : Prop extends Facts₀ where

variable [Facts]
-- ==== Proof.Spec.lean ====
/-
  The function both programs compute, and the integer facts about the slab a word selects.

  Inputs: x : [4096, 1024], T : [8, 1024, 1024] and eight index words idx : [8]. The result has 8 * 4096 rows; row
  R = p * 4096 + b (p < 8, b < 4096), column o, holds

      sum over d < 1024 of  x[b, d] * T[s(idx[p]), o, d],

  where s(w) is the word w read as a signed integer and clamped into 0 .. 7: output row-block p is x times the
  transpose of slab s(idx[p]) of T.

  A word clipped by max(0, .) then min(7, .) has, read unsigned, exactly the value s(w) (`clip_toNat`). A word
  that is signed-nonnegative is left alone by the wrap "add 8 if negative" (`wrap_of_nonneg`); this is where the
  two programs part on a negative word: the wrap sends -1 to 7, the clip sends it to 0.
-/
import Idealize.ShloMosaic.PureOps
import Idealize.ShloMosaic.Lib.ValueIdx

noncomputable section

namespace Cert.SlabProduct

open Idealize.ShloMosaic Idealize.ShloMosaic.ValueIdx

abbrev SX : Shape := ⟨2, ![4096, 1024]⟩
abbrev ST : Shape := ⟨3, ![8, 1024, 1024]⟩
abbrev SI : Shape := ⟨1, ![8]⟩
abbrev SO : Shape := ⟨2, ![32768, 1024]⟩

/-- The slab a word selects: the word read signed, clamped into 0 .. 7. -/
def slab (w : BitVec 32) : Fin 8 := ⟨min w.toInt.toNat 7, by omega⟩

/-- Which of the eight row-blocks of the result a row lies in, and the row of x it uses. -/
def rowP (j : SO.Idx) : Fin 8 := ⟨(j 0).val / 4096, by have := idx2_lt0 j; omega⟩
def rowB (j : SO.Idx) : Fin 4096 := ⟨(j 0).val % 4096, Nat.mod_lt _ (by decide)⟩
def colO (j : SO.Idx) : Fin 1024 := ⟨(j 1).val, idx2_lt1 j⟩

/-- THE RESULT, index by index. -/
def G (x : FVec Ideal SX .f32) (T : FVec Ideal ST .f32) (idx : IVec SI 32) : FVec Ideal SO .f32 :=
  fun j => ∑ k : Fin 1024, x (ix2 (rowB j) k) * T (ix3 (slab (idx (ix1 (rowP j)))) (colO j) k)

/-- A word clipped below at 0 and above at 7 (signed) is, read unsigned, the word read signed and clamped into
    0 .. 7. -/
theorem clip_toNat (w : BitVec 32) : (IntOp.minsi 7#32 (IntOp.maxsi 0#32 w)).toNat = min w.toInt.toNat 7 := by
  have h0 : (0#32 : BitVec 32).toInt = 0 := by decide
  have h7 : (7#32 : BitVec 32).toInt = 7 := by decide
  have h32 := w.isLt
  have hw := BitVec.toInt_eq_toNat_cond w
  unfold IntOp.minsi IntOp.maxsi
  simp only [BitVec.slt, h0, h7, decide_eq_true_eq]
  by_cases hneg : w.toInt < 0
  · rw [if_pos hneg, h0, if_neg (by decide)]
    show (0 : Nat) = _
    omega
  · rw [if_neg hneg]
    by_cases h7' : (7 : Int) < w.toInt
    · rw [if_pos h7']
      show (7 : Nat) = _
      omega
    · rw [if_neg h7']
      split at hw <;> omega

/-- The clipped word, read unsigned, is below 8. -/
theorem clip_lt (w : BitVec 32) : (IntOp.minsi 7#32 (IntOp.maxsi 0#32 w)).toNat < 8 := by
  rw [clip_toNat]; omega

theorem ofBool_eq_one (b : Bool) : BitVec.ofBool b = 1#1 ↔ b = true := by cases b <;> decide

/-- "Add 8 if negative" leaves a signed-nonnegative word alone. -/
theorem wrap_of_nonneg (w : BitVec 32) (h : IntOp.cmpi .sge w 0#32 = 1#1) :
    Scalar.select (IntOp.cmpi .slt w 0#32) (IntOp.addi w 8#32) w = w := by
  refine if_neg fun h' => ?_
  have h'' : BitVec.ofBool (w.slt 0#32) = 1#1 := h'
  unfold IntOp.cmpi at h
  rw [ofBool_eq_one] at h h''
  simp only [BitVec.slt, BitVec.sle, decide_eq_true_eq] at h h''
  omega

end Cert.SlabProduct

end
-- ==== Proof.HostBits.lean ====
/-
  The host operations before the pallas_call, read back.

  The table the pipeline's index maps read is the index vector clipped word by word, max(0, .) then min(7, .)
  (`tbl_apply`), so every word of it, read unsigned, is below 8 (`tbl_lt`). Window 1 fetches the [1, 1024, 1024]
  block of T at (table[p], 0, 0): with table[p] < 8 that block lies inside the [8, 1024, 1024] array, and its
  second-to-last axis is taken whole from offset 0, so its ends are whole words: the pipeline's side condition
  holds for EVERY contents of the index vector (`ok`), the clip being what guarantees it.
-/
import proofs.«402917_j14147622273075_3_alg».proof.Proof.Gen.Kernel.Frame
import proofs.«402917_j14147622273075_3_alg».proof.Proof.Spec

set_option maxRecDepth 16384

noncomputable section

namespace Cert.Kernel.HostPrefix

open Cert.Kernel Cert.Kernel.Gen
open Idealize.ShloMosaic Idealize.ShloMosaic.TcCoe Idealize.SL.Sem Idealize.ShloMosaic.ValueIdx
open Cert.SlabProduct (clip_toNat clip_lt)

variable {F : FTy → Type} [FloatOps F]
variable (m : (ℓ : Loc nD τ sig) → Buf (Elt F) ℓ)

/-- The index words the program was launched with (there is one device). -/
abbrev words : IVec S8 32 := m (((0 : Dev nD) : Thread nD τ).loc main_arg2)

/-- The table is the index vector clipped word by word. -/
theorem tbl_eq : tbl m 0 = fun i => IntOp.minsi 7#32 (IntOp.maxsi 0#32 (words m i)) := by
  unfold tbl
  show V m 0 main_v0 = _
  dsimp only [V]
  simp only [hostOps0, hostOps0_1, hostOps0_2, List.flatten_cons, List.flatten_nil, List.append_nil, List.cons_append,
    List.nil_append]
  after_results
  rfl

theorem tbl_apply (i : S8.Idx) : tbl m 0 i = IntOp.minsi 7#32 (IntOp.maxsi 0#32 (words m i)) :=
  congrFun (tbl_eq m) i

/-- Every word of the table, read unsigned, is below 8. -/
theorem tbl_lt (i : S8.Idx) : (tbl m 0 i).toNat < 8 := by rw [tbl_apply]; exact clip_lt _

/-- THE PIPELINE'S SIDE CONDITION, for every contents of the index vector. -/
theorem ok : Ok m := by
  intro i
  obtain ⟨w, hw, e⟩ : ∃ w : BitVec 32, w.toNat < 8 ∧ cc0_transform_1 Facts₀.k0_off1_inb Facts₀.numel1_S1 (tbl m) i = ![w.toNat, 0, 0] :=
    ⟨_, tbl_lt m _, rfl⟩
  rw [e]
  refine ⟨fun a => ?_, Or.inr (Or.inr ⟨by decide, rfl, ?_, rfl⟩)⟩
  · fin_cases a <;> simp [S1x1024x1024, S8x1024x1024] <;> omega
  · show (![w.toNat, 0, 0] : Fin 3 → Nat) 1 * S1x1024x1024.size 1 = 0
    simp

end Cert.Kernel.HostPrefix

end
-- ==== Proof.HostIdeal.lean ====
/-
  The host operations before the pallas_call, read back.

  The table the pipeline's index maps read is the index vector clipped word by word, max(0, .) then min(7, .)
  (`tbl_apply`), so every word of it, read unsigned, is below 8 (`tbl_lt`). Window 1 fetches the [1, 1024, 1024]
  block of T at (table[p], 0, 0): with table[p] < 8 that block lies inside the [8, 1024, 1024] array, and its
  second-to-last axis is taken whole from offset 0, so its ends are whole words: the pipeline's side condition
  holds for EVERY contents of the index vector (`ok`), the clip being what guarantees it.
-/
import proofs.«402917_j14147622273075_3_alg».proof.Proof.Gen.KernelIdeal.Frame
import proofs.«402917_j14147622273075_3_alg».proof.Proof.Spec

set_option maxRecDepth 16384

noncomputable section

namespace Cert.KernelIdeal.HostPrefix

open Cert.KernelIdeal Cert.KernelIdeal.Gen
open Idealize.ShloMosaic Idealize.ShloMosaic.TcCoe Idealize.SL.Sem Idealize.ShloMosaic.ValueIdx
open Cert.SlabProduct (clip_toNat clip_lt)

variable {F : FTy → Type} [FloatOps F]
variable (m : (ℓ : Loc nD τ sig) → Buf (Elt F) ℓ)

/-- The index words the program was launched with (there is one device). -/
abbrev words : IVec S8 32 := m (((0 : Dev nD) : Thread nD τ).loc main_arg2)

/-- The table is the index vector clipped word by word. -/
theorem tbl_eq : tbl m 0 = fun i => IntOp.minsi 7#32 (IntOp.maxsi 0#32 (words m i)) := by
  unfold tbl
  show V m 0 main_v0 = _
  dsimp only [V]
  simp only [hostOps0, hostOps0_1, hostOps0_2, List.flatten_cons, List.flatten_nil, List.append_nil, List.cons_append,
    List.nil_append]
  after_results
  rfl

theorem tbl_apply (i : S8.Idx) : tbl m 0 i = IntOp.minsi 7#32 (IntOp.maxsi 0#32 (words m i)) :=
  congrFun (tbl_eq m) i

/-- Every word of the table, read unsigned, is below 8. -/
theorem tbl_lt (i : S8.Idx) : (tbl m 0 i).toNat < 8 := by rw [tbl_apply]; exact clip_lt _

/-- THE PIPELINE'S SIDE CONDITION, for every contents of the index vector. -/
theorem ok : Ok m := by
  intro i
  obtain ⟨w, hw, e⟩ : ∃ w : BitVec 32, w.toNat < 8 ∧ cc0_transform_1 Facts₀.k0_off1_inb Facts₀.numel1_S1 (tbl m) i = ![w.toNat, 0, 0] :=
    ⟨_, tbl_lt m _, rfl⟩
  rw [e]
  refine ⟨fun a => ?_, Or.inr (Or.inr ⟨by decide, rfl, ?_, rfl⟩)⟩
  · fin_cases a <;> simp [S1x1024x1024, S8x1024x1024] <;> omega
  · show (![w.toNat, 0, 0] : Fin 3 → Nat) 1 * S1x1024x1024.size 1 = 0
    simp

end Cert.KernelIdeal.HostPrefix

end
-- ==== Proof.Payload.lean ====
/-
  What the kernel body leaves in the output block, as a function of the two input blocks.

  The body loads the whole x block X : [2048, 1024] and the whole T block Y : [1, 1024, 1024], multiplies X by the
  transpose of Y's one slab into a zero accumulator and stores the product over the whole output block. So the
  block the run leaves is that one payload (`block_eq`), and at the exact values its entry (r, o) is

      sum over k < 1024 of  X[r, k] * Y[0, o, k]

  (`payload_apply`): both operands are contracted along their last axis, the accumulator is zero, and dropping
  Y's unit axis only renames its indices.
-/
import proofs.«402917_j14147622273075_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Payload

open Cert.KernelIdeal Cert.KernelIdeal.Gen
open Idealize.ShloMosaic Idealize.ShloMosaic.TcCoe Idealize.SL.Sem Idealize.ShloMosaic.ValueIdx
open Idealize.ShloMosaic.Tactic

theorem zero2 : (![0, 0] : Fin 2 → Nat) = fun _ => 0 := by funext a; fin_cases a <;> rfl
theorem zero3 : (![0, 0, 0] : Fin 3 → Nat) = fun _ => 0 := by funext a; fin_cases a <;> rfl

/-- THE OUTPUT BLOCK THE RUN LEAVES is the body's one payload of the two input blocks, at any float values. -/
theorem block_eq {F : FTy → Type} [FloatOps F] (c : Dev nD) (i : grid0.Coords)
    (arg3 : Memref sig .tc .vmem S2048x1024 .bf16) (harg3 : arg3.IsWhole)
    (arg4 : Memref sig .tc .vmem S1x1024x1024 .bf16) (harg4 : arg4.IsWhole)
    (arg5 : Memref sig .tc .vmem S2048x1024 .f32) (harg5 : arg5.IsWhole)
    (x0 : Vec F S2048x1024 .bf16) (x1 : Vec F S1x1024x1024 .bf16) (xt0 : TbBuf0 (F := F) c tbM0_0) :
    out0_A_2 c i arg3 harg3 arg4 harg4 arg5 harg5 x0 x1 xt0 = k0_pay1 x0 x1 := by
  unfold out0_A_2
  rw [View.read_writes_eq_canon _ _ _ (cover0_A_2 c i arg3 harg3 arg4 harg4 arg5 harg5 x0 x1 xt0)]
  unfold kernelRun0_A
  dsimp only
  sl_unfold_words
  rw [View.canon_unit_zero zero2]
  simp only [View.readAt_eq_ld, harg3.read_unread, harg4.read_unread, View.ld_unit_zero (S := S2048x1024) zero2,
    View.ld_unit_zero (S := S1x1024x1024) zero3]

/-! ## The product at an index -/

theorem lhs_0 (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem lhs_1 (i : S2048x1024.Idx) (q : dot_S2048x1024_S1024x1024_S2048x1024_1_1_0_0_n_n.contr.Idx) :
    (dot_S2048x1024_S1024x1024_S2048x1024_1_1_0_0_n_n.lhsIdx i q 1).val = (q ⟨0, by decide⟩).val :=
  dot_S2048x1024_S1024x1024_S2048x1024_1_1_0_0_n_n.lhsIdx_val_of_single rfl i q
theorem rhs_0 (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem rhs_1 (i : S2048x1024.Idx) (q : dot_S2048x1024_S1024x1024_S2048x1024_1_1_0_0_n_n.contr.Idx) :
    (dot_S2048x1024_S1024x1024_S2048x1024_1_1_0_0_n_n.rhsIdx i q 1).val = (q ⟨0, by decide⟩).val :=
  dot_S2048x1024_S1024x1024_S2048x1024_1_1_0_0_n_n.rhsIdx_val_of_single rfl i q

/-- The T block with its unit axis dropped, at (o, k), is the block at (0, o, k). -/
theorem slab_apply {α : Type} (y : S1x1024x1024.Idx → α) (o k : Fin 1024) :
    shapeCast S1024x1024 y Facts₀.shapeCasts_S1x1024x1024_S1024x1024 (ix2 o k) = y (ix3 (0 : Fin 1) o k) :=
  shapeCast_apply y _ (ix2 o k) (ix3 (0 : Fin 1) o k) (by
    rewrite [Shape.rowMajor_val_three, Shape.rowMajor_val_two]
    show ((0 : Nat) * 1024 + o.val) * 1024 + k.val = o.val * 1024 + k.val
    omega)

/-- THE PAYLOAD AT (r, o), at the exact values: row r of the x block against row o of the T block's slab. -/
theorem payload_apply (x0 : Vec Ideal S2048x1024 .bf16) (x1 : Vec Ideal S1x1024x1024 .bf16) (r : Fin 2048) (o : Fin 1024) :
    k0_pay1 (F := Ideal) x0 x1 (ix2 r o) = ∑ k : Fin 1024, x0 (ix2 r k) * x1 (ix3 (0 : Fin 1) o k) := by
  unfold k0_pay1
  rw [shapeCast_self]
  refine (Ideal.matmul_constant_zero_apply dot_S2048x1024_S1024x1024_S2048x1024_1_1_0_0_n_n none _ _ (ix2 r o)).trans ?_
  rw [← Equiv.sum_comp (ValueIdx.contrEquiv1 dot_S2048x1024_S1024x1024_S2048x1024_1_1_0_0_n_n 1024 rfl rfl).symm]
  refine Finset.sum_congr rfl fun k _ => ?_
  have hk := ValueIdx.contrEquiv1_symm_val dot_S2048x1024_S1024x1024_S2048x1024_1_1_0_0_n_n 1024 rfl rfl k
  have el : dot_S2048x1024_S1024x1024_S2048x1024_1_1_0_0_n_n.lhsIdx (ix2 r o) ((ValueIdx.contrEquiv1 dot_S2048x1024_S1024x1024_S2048x1024_1_1_0_0_n_n 1024 rfl rfl).symm k) = ix2 r k := funext fun a => Fin.ext (by
    match a with
    | ⟨0, _⟩ => exact lhs_0 _ _
    | ⟨1, _⟩ => exact (lhs_1 _ _).trans hk)
  have er : dot_S2048x1024_S1024x1024_S2048x1024_1_1_0_0_n_n.rhsIdx (ix2 r o) ((ValueIdx.contrEquiv1 dot_S2048x1024_S1024x1024_S2048x1024_1_1_0_0_n_n 1024 rfl rfl).symm k) = ix2 o k := funext fun a => Fin.ext (by
    match a with
    | ⟨0, _⟩ => exact rhs_0 _ _
    | ⟨1, _⟩ => exact (rhs_1 _ _).trans hk)
  rw [el, er, slab_apply]

end Cert.KernelIdeal.Payload

end
-- ==== Proof.Blocks.lean ====
/-
  From the blocks to the array: what the kernel's result array holds after the run, at the exact values.

  The grid has 16 points t = i * 8 + p (i < 2 outer, p < 8 inner). At point t the pipeline hands the body rows
  i * 2048 .. i * 2048 + 2047 of x (`xblk_apply`) and slab table[p] of T (`tblk_apply`: the block index is the
  table's word at p, the table being the clipped index vector), and writes the body's block back as row-block
  p * 2 + i of the result, that is rows p * 4096 + i * 2048 + r. By the payload's formula the entry (r, o) of that
  block is the sum over k of x[i * 2048 + r, k] * T[table[p], o, k], which is the specification at row
  p * 4096 + (i * 2048 + r) (`out_apply`): the row-block is p, the row of x is i * 2048 + r, and the table's word
  read unsigned is the index word read signed and clamped into 0 .. 7. The 16 blocks tile the result (`cover`:
  row R lies in the block of the point ((R mod 4096) / 2048) * 8 + R / 4096), so the array ends holding the
  specification (`final`), and the run's post names it (`run`).
  The two float arrays the region stages are the launch arrays themselves: the host's change of float format is
  the identity at the exact values (`xarr_eq`, `tarr_eq`).
-/
import proofs.«402917_j14147622273075_3_alg».proof.Proof.HostIdeal
import proofs.«402917_j14147622273075_3_alg».proof.Proof.Payload

set_option maxRecDepth 16384

noncomputable section

namespace Cert.KernelIdeal.Blocks

open Cert.KernelIdeal Cert.KernelIdeal.Gen
open Idealize.ShloMosaic Idealize.ShloMosaic.TcCoe Idealize.SL.Sem Idealize.ShloMosaic.ValueIdx
open Idealize.ShloMosaic.Pipeline (Dat)
open Cert.SlabProduct (slab rowP rowB colO)

variable (m : (ℓ : Loc nD τ sig) → Buf (Elt Ideal) ℓ) (ρ : Dev nD → PrngReg)

/-- The pipeline's side condition at this memory. -/
abbrev hO : Ok m := HostPrefix.ok m

/-- The input blocks at a point and the staged arrays, each at its literal type. -/
abbrev xblk (c : Dev nD) (t : Fin (cfgM m (hO m)).N) : Vec Ideal S2048x1024 .bf16 := iblk m (hO m) c 0 t
abbrev tblk (c : Dev nD) (t : Fin (cfgM m (hO m)).N) : Vec Ideal S1x1024x1024 .bf16 := iblk m (hO m) c 1 t
abbrev xarr (c : Dev nD) : Vec Ideal S4096x1024 .bf16 := V m c main_v1
abbrev tarr (c : Dev nD) : Vec Ideal S8x1024x1024 .bf16 := V m c main_v2

/-- The launch arrays. -/
abbrev xs (c : Dev nD) : FVec Ideal S4096x1024 .f32 := m ((c : Thread nD τ).loc main_arg0)
abbrev ts (c : Dev nD) : FVec Ideal S8x1024x1024 .f32 := m ((c : Thread nD τ).loc main_arg1)
abbrev ws (c : Dev nD) : IVec S8 32 := m ((c : Thread nD τ).loc main_arg2)

/-- THE VALUE the result array is shown to hold. -/
def val (c : Dev nD) : Buf (Elt Ideal) ((c : Thread nD τ).loc main_v3) := Cert.SlabProduct.G (xs m c) (ts m c) (ws m c)

/-! ## The staged arrays are the launch arrays -/

theorem xarr_eq (c : Dev nD) : xarr m c = xs m c := by
  show (V m c main_v1 : S4096x1024.Idx → EReal) = _
  dsimp only [V]
  simp only [hostOps0, hostOps0_1, hostOps0_2, List.flatten_cons, List.flatten_nil, List.append_nil, List.cons_append,
    List.nil_append]
  after_results
  rfl

theorem tarr_eq (c : Dev nD) : tarr m c = ts m c := by
  show (V m c main_v2 : S8x1024x1024.Idx → EReal) = _
  dsimp only [V]
  simp only [hostOps0, hostOps0_1, hostOps0_2, List.flatten_cons, List.flatten_nil, List.append_nil, List.cons_append,
    List.nil_append]
  after_results
  rfl

/-! ## The index maps over the grid -/

theorem map0_0 : ∀ t : Fin grid0.N, cc0_transform_0 (grid0.coords t) (0 : Fin 2) = t.val / 8 := by decide +kernel
theorem map0_1 : ∀ t : Fin grid0.N, cc0_transform_0 (grid0.coords t) (1 : Fin 2) = 0 := by decide +kernel
theorem map2_0 : ∀ t : Fin grid0.N, cc0_transform_2 (grid0.coords t) (0 : Fin 2) = t.val % 8 * 2 + t.val / 8 := by decide +kernel
theorem map2_1 : ∀ t : Fin grid0.N, cc0_transform_2 (grid0.coords t) (1 : Fin 2) = 0 := by decide +kernel
theorem coord_p : ∀ t : Fin grid0.N, ((grid0.coords t) 1).val = t.val % 8 := by decide +kernel

/-- Window 1's block index along T's first axis is the table's word at the point's inner coordinate. -/
theorem map1_0 (pf : pre0.Contents (Elt Ideal)) (t : Fin grid0.N) :
    cc0_transform_1 Facts₀.k0_off1_inb Facts₀.numel1_S1 pf (grid0.coords t) (0 : Fin 3)
      = (pf 0 (ix1 ⟨t.val % 8, Nat.mod_lt _ (by decide)⟩)).toNat := by
  show (pf 0 _).toNat = _
  refine congrArg (fun i => (pf 0 i).toNat) (funext fun a => Fin.ext ?_)
  have hc := coord_p t
  have hunit : ∀ x : Fin (S1.size (0 : Fin 1)), 1 * x.val = 0 := fun x => by
    have := x.isLt
    have e : S1.size (0 : Fin 1) = 1 := by decide
    omega
  match a with
  | ⟨0, _⟩ =>
    refine (congrArg₂ (· + ·)
      (show (Scalar.indexCast (BitVec.ofNat 32 ((grid0.coords t) 1).val)).toNat = t.val % 8 from ?_)
      (hunit _)).trans (Nat.add_zero _)
    show (BitVec.ofNat 32 ((grid0.coords t) 1).val).toNat = t.val % 8
    rw [BitVec.toNat_ofNat, hc]
    omega

/-! ## The input blocks read off the arrays -/

theorem xblk_apply (c : Dev nD) (t : Fin (cfgM m (hO m)).N) (y : S2048x1024.Idx) (i : S4096x1024.Idx)
    (h0 : (i 0).val = t.val / 8 * 2048 + (y 0).val) (h1 : (i 1).val = (y 1).val) :
    xblk m c t y = xarr m c i := by
  show V m c main_v1 ((((cfgM m (hO m)).win 0).blk t).view.emb y) = V m c main_v1 i
  refine congrArg _ (funext fun a => Fin.ext ?_)
  match a with
  | ⟨0, _⟩ =>
    show cc0_transform_0 (grid0.coords t) (0 : Fin 2) * 2048 + 1 * (y 0).val = (i 0).val
    rw [map0_0 t, h0]; omega
  | ⟨1, _⟩ =>
    show cc0_transform_0 (grid0.coords t) (1 : Fin 2) * 1024 + 1 * (y 1).val = (i 1).val
    rw [map0_1 t, h1]; omega

theorem tblk_apply (c : Dev nD) (t : Fin (cfgM m (hO m)).N) (y : S1x1024x1024.Idx) (i : S8x1024x1024.Idx)
    (h0 : (i 0).val = (tbl m 0 (ix1 ⟨t.val % 8, Nat.mod_lt _ (by decide)⟩)).toNat) (h1 : (i 1).val = (y 1).val)
    (h2 : (i 2).val = (y 2).val) :
    tblk m c t y = tarr m c i := by
  show V m c main_v2 ((((cfgM m (hO m)).win 1).blk t).view.emb y) = V m c main_v2 i
  refine congrArg _ (funext fun a => Fin.ext ?_)
  have hy0 : (y 0).val = 0 := by
    have := (y 0).isLt
    have e : S1x1024x1024.size 0 = 1 := by decide
    omega
  match a with
  | ⟨0, _⟩ =>
    show cc0_transform_1 Facts₀.k0_off1_inb Facts₀.numel1_S1 (tbl m) (grid0.coords t) (0 : Fin 3) * 1 + 1 * (y 0).val = (i 0).val
    rw [map1_0 (tbl m) t, h0, hy0]; omega
  | ⟨1, _⟩ =>
    show 0 * 1024 + 1 * (y 1).val = (i 1).val
    rw [h1]; omega
  | ⟨2, _⟩ =>
    show 0 * 1024 + 1 * (y 2).val = (i 2).val
    rw [h2]; omega

/-! ## The output block at a point -/

/-- The table's word, read unsigned, is the slab the index word selects. -/
theorem tbl_slab (i : S8.Idx) : (tbl m 0 i).toNat = (slab (ws m 0 i)).val := by
  rw [HostPrefix.tbl_apply]; exact Cert.SlabProduct.clip_toNat _

/-- THE BLOCK THE BODY LEAVES AT POINT t, at y, is the specification at row (p * 2 + i) * 2048 + y₀, column y₁. -/
theorem out_apply (c : Dev nD) (t : Fin (cfgM m (hO m)).N) (y : S2048x1024.Idx) (j : S32768x1024.Idx)
    (h0 : (j 0).val = (t.val % 8 * 2 + t.val / 8) * 2048 + (y 0).val) (h1 : (j 1).val = (y 1).val) :
    outsAt0 m (hO m) c t y = val m c j := by
  obtain rfl : c = 0 := Subsingleton.elim _ _
  have ht : t.val < 16 := Nat.lt_of_lt_of_eq t.isLt N_0
  obtain ⟨r, o, rfl⟩ : ∃ (r : Fin 2048) (o : Fin 1024), y = ix2 r o := ⟨y 0, y 1, eq_ix2 y⟩
  have hr : r.val < 2048 := r.isLt
  have h0' : (j 0).val = (t.val % 8 * 2 + t.val / 8) * 2048 + r.val := h0
  refine (congrFun (Payload.block_eq (F := Ideal) 0 (grid0.coords t) (ms0_0 m (hO m) t) (hs0_0 m (hO m) t)
    (ms0_1 m (hO m) t) (hs0_1 m (hO m) t) (ms0_2 m (hO m) t) (hs0_2 m (hO m) t) (xblk m 0 t) (tblk m 0 t) (tbl m 0))
    (ix2 r o)).trans ?_
  refine (Payload.payload_apply (xblk m 0 t) (tblk m 0 t) r o).trans ?_
  show _ = ∑ k : Fin 1024, xs m 0 (ix2 (rowB j) k) * ts m 0 (ix3 (slab (ws m 0 (ix1 (rowP j)))) (colO j) k)
  refine Finset.sum_congr rfl fun k _ => ?_
  have hp : (rowP j).val = t.val % 8 := by show (j 0).val / 4096 = _; omega
  have hb : (rowB j).val = t.val / 8 * 2048 + r.val := by show (j 0).val % 4096 = _; omega
  rw [xblk_apply m 0 t (ix2 r k) (ix2 (rowB j) k) hb rfl,
    tblk_apply m 0 t (ix3 (0 : Fin 1) o k) (ix3 (slab (ws m 0 (ix1 (rowP j)))) (colO j) k)
      (by
        show (slab (ws m 0 (ix1 (rowP j)))).val = _
        rw [tbl_slab]
        exact congrArg (fun q : Fin 8 => (slab (ws m 0 (ix1 q))).val) (Fin.ext hp))
      h1 rfl,
    xarr_eq, tarr_eq]

/-! ## The array the kernel leaves -/

/-- What point t writes back is the specification read through the point's block. -/
theorem flushed_eq (c : Dev nD) (t : Fin (cfgM m (hO m)).N) (_ : ((cfgM m (hO m)).win 2).flush t = true) :
    (dats m (hO m) 0 c).flushed 2 t = (((cfgM m (hO m)).win 2).blk t).view.read (Elt Ideal) (val m c) := by
  show ((cfgM m (hO m)).win 2).cut (grid0.coords t) ((dats m (hO m) 0 c).after 2 t) = _
  rw [after0_2]
  refine funext fun (y : S2048x1024.Idx) => ?_
  show outsAt0 m (hO m) c t y = val m c ((((cfgM m (hO m)).win 2).blk t).view.emb y)
  refine out_apply m c t y _ ?_ ?_
  · show cc0_transform_2 (grid0.coords t) (0 : Fin 2) * 2048 + 1 * (y 0).val = _
    rw [map2_0 t]; omega
  · show cc0_transform_2 (grid0.coords t) (1 : Fin 2) * 1024 + 1 * (y 1).val = _
    rw [map2_1 t]; omega

/-- An index of the result is in point t's block iff each coordinate is in the block's range on its axis. -/
theorem mem_blk (t : Fin (cfgM m (hO m)).N) (i : S32768x1024.Idx) :
    i ∈ (((cfgM m (hO m)).win 2).blk t).view.set
      ↔ ∀ a : Fin 2, cc0_transform_2 (grid0.coords t) a * S2048x1024.size a ≤ (i a).val
          ∧ (i a).val < cc0_transform_2 (grid0.coords t) a * S2048x1024.size a + S2048x1024.size a := by
  have e : ((((cfgM m (hO m)).win 2).blk t).view.set : Finset S32768x1024.Idx) = (((cfgM m (hO m)).win 2).rect t).set :=
    View.set_slice_whole main_v3 (((cfgM m (hO m)).win 2).rect t)
  exact (Eq.to_iff (congrArg (fun s : Finset S32768x1024.Idx => i ∈ s) e)).trans Rect.mem_set_unit

/-- The 16 blocks tile the result: row R lies in the block of the point ((R mod 4096) / 2048) * 8 + R / 4096. -/
theorem cover (i : S32768x1024.Idx) :
    ∃ t : Fin (cfgM m (hO m)).N, ((cfgM m (hO m)).win 2).flush t = true ∧ i ∈ (((cfgM m (hO m)).win 2).blk t).view.set := by
  have hi0 : (i 0).val < 32768 := idx2_lt0 i
  have hi1 : (i 1).val < 1024 := idx2_lt1 i
  have hN : (cfgM m (hO m)).N = 16 := N_0
  have hlt : (i 0).val % 4096 / 2048 * 8 + (i 0).val / 4096 < (cfgM m (hO m)).N := by rw [hN]; omega
  refine ⟨⟨(i 0).val % 4096 / 2048 * 8 + (i 0).val / 4096, hlt⟩, flush0_2 _ _, ?_⟩
  rw [mem_blk]
  have q0 := map2_0 ⟨(i 0).val % 4096 / 2048 * 8 + (i 0).val / 4096, hlt⟩
  have q1 := map2_1 ⟨(i 0).val % 4096 / 2048 * 8 + (i 0).val / 4096, hlt⟩
  intro a
  match a with
  | ⟨0, _⟩ =>
    show cc0_transform_2 (grid0.coords ⟨_, hlt⟩) (0 : Fin 2) * 2048 ≤ (i 0).val
      ∧ (i 0).val < cc0_transform_2 (grid0.coords ⟨_, hlt⟩) (0 : Fin 2) * 2048 + 2048
    rw [q0]
    show (((i 0).val % 4096 / 2048 * 8 + (i 0).val / 4096) % 8 * 2 + ((i 0).val % 4096 / 2048 * 8 + (i 0).val / 4096) / 8) * 2048 ≤ (i 0).val
      ∧ (i 0).val < (((i 0).val % 4096 / 2048 * 8 + (i 0).val / 4096) % 8 * 2 + ((i 0).val % 4096 / 2048 * 8 + (i 0).val / 4096) / 8) * 2048 + 2048
    omega
  | ⟨1, _⟩ =>
    show cc0_transform_2 (grid0.coords ⟨_, hlt⟩) (1 : Fin 2) * 1024 ≤ (i 1).val
      ∧ (i 1).val < cc0_transform_2 (grid0.coords ⟨_, hlt⟩) (1 : Fin 2) * 1024 + 1024
    rw [q1]
    omega

/-- THE RESULT ARRAY ends holding the specification. -/
theorem final (c : Dev nD) : (dats m (hO m) 0 c).arrAt 2 (cfgM m (hO m)).N = val m c :=
  (dats m (hO m) 0 c).arrAt_eq_of_cover 2 (val m c) (flushed_eq m c) (cover m)

/-- THE KERNEL'S RUN with its result named. -/
theorem run :
    θ_run defs (onTc (τ := τ) (main (F := Ideal))) ⟨m, fun _ => 0, ρ⟩ fun r => ∀ c : Dev nD,
      r.2.mem ((c : Thread nD τ).loc main_v3) = val m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  refine (θ_run defs _ _).mono (fun _ hq c => ?_) (run_main m ρ (hO m))
  exact ⟨((hq c).1 2).trans (final m c),
    ((hq c).2 main_arg0 (by decide : main_arg0 ∈ Pipeline.restRefs sig spec0)).trans (V_main_arg0 m c),
    ((hq c).2 main_arg1 (by decide : main_arg1 ∈ Pipeline.restRefs sig spec0)).trans (V_main_arg1 m c),
    ((hq c).2 main_arg2 (by decide : main_arg2 ∈ Pipeline.restRefs sig spec0)).trans (V_main_arg2 m c)⟩

end Cert.KernelIdeal.Blocks

end
-- ==== Proof.LibGather3.lean ====
/-
  A gather of slabs, read at an index.

  The gather y[r, a, b] = x[idx[r], a, b] of an operand x : [N, A, B] at a column of start indices idx : [R, 1]
  (the first axis collapsed, the other two kept whole as offset axes): result element (r, a, b) is x at row idx[r, 0],
  that word read as a signed integer and clamped into [0, N - 1], and the same a and b.
-/
import Idealize.ShloMosaic.PureOps
import Idealize.ShloMosaic.Lib.ValueIdx

namespace Idealize.ShloMosaic.HostIdx3

open Idealize.ShloMosaic Idealize.ShloMosaic.ValueIdx

/-- THE SLAB GATHER READ AT (r, a, b): the operand at row idx[r, 0], read signed and clamped into [0, N - 1], and
    the same two inner coordinates. -/
theorem gather_slabs_apply {α : Type} {N R A B w : Nat} (hN : 0 < N)
    (d : GatherDims ⟨3, ![N, A, B]⟩ ⟨2, ![R, 1]⟩ ⟨3, ![R, A, B]⟩)
    (hod : d.offsetDims = [1, 2]) (hcd : d.collapsedSliceDims = [0]) (hob : d.operandBatchingDims = [])
    (hsb : d.startIndicesBatchingDims = []) (hsim : d.startIndexMap = [0]) (hiv : d.indexVectorDim = 1)
    (hss : d.sliceSizes = ![1, A, B])
    (x : (⟨3, ![N, A, B]⟩ : Shape).Idx → α) (idx : IVec ⟨2, ![R, 1]⟩ w) (r : Fin R) (a : Fin A) (b : Fin B) :
    Host.gather d x idx (ix3 r a b)
      = x (ix3 ⟨min (idx (ix2 r (0 : Fin 1))).toInt.toNat (N - 1), by omega⟩ a b) := by
  obtain ⟨od, cd, ob, sb, sim, iv, ss, wf⟩ := d
  dsimp only at hod hcd hob hsb hsim hiv hss
  subst hod hcd hob hsb hsim hiv hss
  unfold Host.gather
  congr 1
  funext c
  refine Fin.ext ?_
  match c with
  | ⟨0, _⟩ =>
    -- the collapsed axis: the clamped start index, no batching coordinate, no offset
    show GatherDims.start _ (ix3 r a b) idx 0 + GatherDims.batchCoord _ (ix3 r a b) 0
      + GatherDims.offCoord _ (ix3 r a b) 0 = _
    rw [GatherDims.batchCoord_eq_zero _ _ _ List.not_mem_nil,
      GatherDims.offCoord_eq_zero _ _ _
        (fun h => ((GatherDims.mem_sKept _ _).mp h).1 (List.mem_singleton.mpr rfl))]
    simp only [Nat.add_zero]
    unfold GatherDims.start
    rw [dif_pos (List.mem_singleton.mpr rfl)]
    have hsi : GatherDims.siIdx (s := ⟨3, ![N, A, B]⟩) (si := ⟨2, ![R, 1]⟩) (t := ⟨3, ![R, A, B]⟩)
        ⟨[1, 2], [0], [], [], [0], 1, ![1, A, B], wf⟩ (ix3 r a b)
        ⟨List.idxOf (0 : Fin 3) [0], List.idxOf_lt_length_iff.2 (List.mem_singleton.mpr rfl)⟩
          = ix2 r (0 : Fin 1) := by
      funext e; refine Fin.ext ?_
      match e with
      | ⟨0, _⟩ => rfl
      | ⟨1, _⟩ => rfl
    rw [hsi]
    rfl
  | ⟨1, _⟩ =>
    -- the first kept axis: start 0, no batching coordinate, the offset is the result's second coordinate
    show GatherDims.start _ (ix3 r a b) idx 1 + GatherDims.batchCoord _ (ix3 r a b) 1
      + GatherDims.offCoord _ (ix3 r a b) 1 = _
    rw [GatherDims.batchCoord_eq_zero _ _ _ List.not_mem_nil]
    unfold GatherDims.start
    rw [dif_neg (show (1 : Fin 3) ∉ ([0] : List (Fin 3)) by decide)]
    simp only [Nat.add_zero, Nat.zero_add]
    unfold GatherDims.offCoord
    rw [dif_pos ((GatherDims.mem_sKept _ _).mpr ⟨show (1 : Fin 3) ∉ ([0] : List (Fin 3)) by decide, List.not_mem_nil⟩)]
    rfl
  | ⟨2, _⟩ =>
    -- the second kept axis: start 0, no batching coordinate, the offset is the result's third coordinate
    show GatherDims.start _ (ix3 r a b) idx 2 + GatherDims.batchCoord _ (ix3 r a b) 2
      + GatherDims.offCoord _ (ix3 r a b) 2 = _
    rw [GatherDims.batchCoord_eq_zero _ _ _ List.not_mem_nil]
    unfold GatherDims.start
    rw [dif_neg (show (2 : Fin 3) ∉ ([0] : List (Fin 3)) by decide)]
    simp only [Nat.add_zero, Nat.zero_add]
    unfold GatherDims.offCoord
    rw [dif_pos ((GatherDims.mem_sKept _ _).mpr ⟨show (2 : Fin 3) ∉ ([0] : List (Fin 3)) by decide, List.not_mem_nil⟩)]
    rfl

end Idealize.ShloMosaic.HostIdx3
-- ==== Proof.RefSide.lean ====
/-
  The reference's result, index by index, is the specification when every index word is nonnegative.

  The reference multiplies every slab of T by the transpose of x (entry (p, o, b) is the sum over d of
  T[p, o, d] * x[b, d]), swaps the last two axes, gathers the eight [4096, 1024] slabs at the index words and
  flattens [8, 4096, 1024] to [32768, 1024]. Row R of the result is therefore row R mod 4096 of slab number
  R / 4096 of the gathered array; the gather reads slab s of the product, s being the start word read signed and
  clamped into 0 .. 7; and the start word is the index word after "add 8 if negative", which is the index word
  itself when it is nonnegative. The two factors of each term of the sum are the specification's in the other
  order.
-/
import proofs.«402917_j14147622273075_3_alg».proof.Proof.Gen.ReferenceIdeal.Read
import proofs.«402917_j14147622273075_3_alg».proof.Proof.LibGather3
import proofs.«402917_j14147622273075_3_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx
open Cert.SlabProduct (slab rowP rowB colO wrap_of_nonneg)

/-- The start word the gather reads for slab r: the index word after the wrap, which leaves a nonnegative word. -/
theorem start_word (idx : IVec S8 32) (hidx : ∀ i, IntOp.cmpi .sge (idx i) 0#32 = 1#1) (r : Fin 8) :
    val_main_v7 (F := Ideal) idx (ix2 r (0 : Fin 1)) = idx (ix1 r) := by
  rw [val_main_v7_apply, val_main_v6_apply, val_main_v3_apply, val_main_v5_apply, val_main_v2_apply, val_main_v4_apply,
    val_main_c_apply, val_main_c_0_apply]
  have e : idx_main_v7 (ix2 r (0 : Fin 1)) = ix1 r := funext fun a => Fin.ext (by match a with | ⟨0, _⟩ => rfl)
  rw [e]
  exact wrap_of_nonneg _ (hidx _)

/-- The gather at (r, b, o): slab s of its operand at (b, o), s the start word of r read signed and clamped into
    0 .. 7. -/
theorem gathered_apply (y : FVec Ideal S8x4096x1024 .f32) (w : IVec S8x1 32) (r : Fin 8) (b : Fin 4096) (o : Fin 1024) :
    Host.gather gather_S8x4096x1024_S8x1_S8x4096x1024_12_0_n_n_0_1_140961024 y w (ix3 r b o)
      = y (ix3 (slab (w (ix2 r (0 : Fin 1)))) b o) :=
  HostIdx3.gather_slabs_apply (by decide) gather_S8x4096x1024_S8x1_S8x4096x1024_12_0_n_n_0_1_140961024 rfl rfl rfl rfl rfl rfl rfl
    y w r b o

/-- THE REFERENCE'S RESULT IS THE SPECIFICATION, under nonnegative index words. -/
theorem result_eq (x : FVec Ideal S4096x1024 .f32) (T : FVec Ideal S8x1024x1024 .f32) (idx : IVec S8 32)
    (hidx : ∀ i, IntOp.cmpi .sge (idx i) 0#32 = 1#1) :
    val_main_v9 (F := Ideal) x T idx = Cert.SlabProduct.G x T idx := by
  funext j
  have hj0 : (j 0).val < 32768 := idx2_lt0 j
  have hj1 : (j 1).val < 1024 := idx2_lt1 j
  -- flattening: row R of the result is row R mod 4096 of slab R / 4096
  have hr : idx_main_v9 j = ix3 (rowP j) (rowB j) (colO j) := funext fun a => Fin.ext (by
    match a with
    | ⟨0, _⟩ => show ((j 0).val * 1024 + (j 1).val) / 4194304 = (j 0).val / 4096; omega
    | ⟨1, _⟩ => show ((j 0).val * 1024 + (j 1).val) / 1024 % 4096 = (j 0).val % 4096; omega
    | ⟨2, _⟩ => show ((j 0).val * 1024 + (j 1).val) % 1024 = (j 1).val; omega)
  rw [val_main_v9_apply, hr]
  unfold val_main_v8
  rw [gathered_apply, val_main_v1_apply, val_main_v0_apply, start_word idx hidx]
  show _ = ∑ k : Fin 1024, x (ix2 (rowB j) k) * T (ix3 (slab (idx (ix1 (rowP j)))) (colO j) k)
  refine Finset.sum_congr rfl fun k _ => ?_
  rw [mul_comm]
  congr 1
  · refine congrArg x (funext fun a => Fin.ext ?_)
    match a with
    | ⟨0, _⟩ => rfl
    | ⟨1, _⟩ => rfl
  · refine congrArg T (funext fun a => Fin.ext ?_)
    match a with
    | ⟨0, _⟩ => rfl
    | ⟨1, _⟩ => rfl
    | ⟨2, _⟩ => rfl

end Cert.ReferenceIdeal.RefValue

end
-- ==== Proof.PreWords.lean ====
/-
  What the precondition says of the index words.

  The precondition is the conjunction of "every entry of x is finite", "every entry of T is finite" and "every
  index word is signed-nonnegative", each an all-reduction into one bit. Its last conjunct, read at a word, is the
  one fact the value proof uses: the reference's "add 8 if negative" then leaves the word alone. (Finiteness is
  not used: both programs form the same products and the same sums of them, and commuting the two factors of a
  product holds on all extended reals.)
-/
import proofs.«402917_j14147622273075_3_alg».proof.Defs
import proofs.«402917_j14147622273075_3_alg».proof.Proof.Gen.Pre_finite_inputs
import Idealize.ShloMosaic.Lib.ReduceAll
import Idealize.ShloMosaic.Lib.ValueIdx
import Idealize.ShloMosaic.Lib.Affine

noncomputable section

namespace Cert.PreWords

open Idealize.ShloMosaic Idealize.SL.Sem Cert.Pre_finite_inputs

instance : Subsingleton S_.Idx := ⟨fun a b => funext fun d => d.elim0⟩

/-- EVERY INDEX WORD IS SIGNED-NONNEGATIVE where the precondition holds of the three arrays. -/
theorem words_nonneg {F : FTy → Type} [FloatOps F] (x : FVec F S4096x1024 .f32) (T : FVec F S8x1024x1024 .f32)
    (idx : IVec S8 32) (h : Cert.Pre_finite_inputs.fn (F := F) x T idx = fun _ => 1#1) (i : S8.Idx) :
    IntOp.cmpi .sge (idx i) 0#32 = 1#1 := by
  have e := congrFun h ValueIdx.ix0
  unfold Cert.Pre_finite_inputs.fn at e
  dsimp only at e
  have e2 := (IntOp.andi_eq_one.mp e).2
  exact Host.reduce_andi_all _ _ _ _ _ e2 i

end Cert.PreWords

end
-- ==== Proof.lean ====
/-
  The certificate's claim: the kernel forward(x, T, indices) against reference(x, T, indices), over the extended reals,
  for finite x and T and nonnegative index words.

  Both programs compute, for row R = p * 4096 + b and column o of the [32768, 1024] result,

      sum over d < 1024 of  x[b, d] * T[s_p, o, d],

  row-block p being x times the transpose of one [1024, 1024] slab s_p of T. The kernel takes s_p = the index word
  idx[p] clipped into 0 .. 7 (max with 0, then min with 7, on the host; the clipped vector is the table the
  pipeline's index maps read). The reference takes jnp's indexing: idx[p] plus 8 when negative, then clamped into
  0 .. 7 by the gather. The two agree at every word outside -7 .. -1 (at or above 8 both give 7; at or below -8 both
  give 0) and differ inside it (the word -1: slab 7 against slab 0), so the claim is stated for nonnegative words.

  The parts:
    Spec        the function above, and the two integer facts (the clip read unsigned; the wrap on a nonnegative word);
    HostIdeal,  the table is the clipped index vector, so every table-indexed block of T lies inside T: the
    HostBits    pipeline's side condition holds for every input (the same text at the two instances);
    Payload     the block the body leaves is x-block times slab transposed, as a sum at the exact values;
    Blocks      the input blocks read off the arrays, the 16 output blocks tile the result, the array ends at the function;
    RefSide     the reference's composed operations, read at an index, are the function;
    PreWords    the precondition's last conjunct at a word.
  The three frames: the two kernels' generated frames at the side condition; the reference's generated run with its
  result dropped. The idealization rewrote nothing, so `preserves` is trivial.
-/
import proofs.«402917_j14147622273075_3_alg».proof.Defs
import proofs.«402917_j14147622273075_3_alg».proof.Proof.Gen.Kernel
import proofs.«402917_j14147622273075_3_alg».proof.Proof.Gen.Kernel.Skeleton
import proofs.«402917_j14147622273075_3_alg».proof.Proof.Gen.Kernel.Launch
import proofs.«402917_j14147622273075_3_alg».proof.Proof.Gen.Kernel.Points
import proofs.«402917_j14147622273075_3_alg».proof.Proof.Gen.Kernel.Frame
import proofs.«402917_j14147622273075_3_alg».proof.Proof.Gen.KernelIdeal
import proofs.«402917_j14147622273075_3_alg».proof.Proof.Gen.KernelIdeal.Skeleton
import proofs.«402917_j14147622273075_3_alg».proof.Proof.Gen.KernelIdeal.Launch
import proofs.«402917_j14147622273075_3_alg».proof.Proof.Gen.KernelIdeal.Points
import proofs.«402917_j14147622273075_3_alg».proof.Proof.Gen.KernelIdeal.Frame
import proofs.«402917_j14147622273075_3_alg».proof.Proof.Gen.ReferenceIdeal
import proofs.«402917_j14147622273075_3_alg».proof.Proof.Gen.ReferenceIdeal.Run
import proofs.«402917_j14147622273075_3_alg».proof.Proof.Gen.ReferenceIdeal.Read
import proofs.«402917_j14147622273075_3_alg».proof.Proof.Gen.Pre_finite_inputs
import proofs.«402917_j14147622273075_3_alg».proof.Proof.HostBits
import proofs.«402917_j14147622273075_3_alg».proof.Proof.HostIdeal
import proofs.«402917_j14147622273075_3_alg».proof.Proof.Blocks
import proofs.«402917_j14147622273075_3_alg».proof.Proof.RefSide
import proofs.«402917_j14147622273075_3_alg».proof.Proof.PreWords
import Idealize.ShloMosaic.Adequacy
import Idealize.ShloMosaic.Init

noncomputable section

namespace Cert.Proof

open Idealize.ShloMosaic Idealize.SL.Sem

/-- Both kernels run, whatever the index words: the clip keeps every table-indexed block of T inside T. -/
theorem frame_k : Cert.frame_Kernel := fun m ρ _ => Cert.Kernel.Gen.frame m ρ (Cert.Kernel.HostPrefix.ok m)
theorem frame_ki : Cert.frame_KernelIdeal := fun m ρ _ => Cert.KernelIdeal.Gen.frame m ρ (Cert.KernelIdeal.HostPrefix.ok m)
/-- The reference is host operations only: its run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- At the exact values the kernel's result array ends at the function of the launch arrays (the blocks), and the
    reference's at its composed operations of arrays that agree with them, which are the same function when the index
    words are nonnegative. -/
theorem algebraic : Cert.algebraic_KernelIdeal_ReferenceIdeal := by
  intro m ρ m' ρ' hpre hagree
  refine ⟨fun c => Cert.KernelIdeal.Blocks.val m c, Cert.KernelIdeal.Blocks.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v9_eq, (hagree c).1, (hagree c).2.1, (hagree c).2.2]
  exact Cert.ReferenceIdeal.RefValue.result_eq _ _ _ (Cert.PreWords.words_nonneg _ _ _ (hpre c))

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
